-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x300 : Shape := ⟨2, ![2048, 300]⟩
abbrev S300x64 : Shape := ⟨2, ![300, 64]⟩
abbrev S300 : Shape := ⟨1, ![300]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x300 : S_.BroadcastsInDim S2048x300 (![] : Fin 0 → Fin S2048x300.rank)
  reducesTo_S2048x300_S_d0_1 : S2048x300.ReducesTo [0, 1] S_
  bcast_S_S300x64 : S_.BroadcastsInDim S300x64 (![] : Fin 0 → Fin S300x64.rank)
  reducesTo_S300x64_S_d0_1 : S300x64.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x64 .f32) (main_arg5 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x64 .f32 := Host.absf main_arg4
  let main_cst_6 : FVec F S_ .f32 := constant S_ .f32 0x7F800000#32
  let main_v20 : FVec F S300x64 .f32 := broadcastInDim S300x64 ![] bcast_S_S300x64 main_cst_6
  let main_v21 : IVec S300x64 1 := cmpf .olt main_v19 main_v20
  let main_c_7 : IVec S_ 1 := constantI S_ 1 1#1
  let main_v22 : IVec S_ 1 := (fun x v => Host.reduce IntOp.andi x v reducesTo_S300x64_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S2048x64 .f32) (main_arg1 : FVec F S2048x300 .f32) (main_arg2 : FVec F S300x64 .f32) (main_arg3 : FVec F S300 .f32) (main_arg4 : FVec F S300x64 .f32) (main_arg5 : FVec F S300 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x300 .f32 := Host.absf main_arg1
  let main_cst_0 : FVec F S_ .f32 := constant S_ .f32 0x7F800000#32
  let main_v5 : FVec F S2048x300 .f32 := broadcastInDim S2048x300 ![] bcast_S_S2048x300 main_cst_0
  let main_v6 : IVec S2048x300 1 := cmpf .olt main_v4 main_v5
  let main_c_1 : IVec S_ 1 := constantI S_ 1 1#1
  let main_v7 : IVec S_ 1 := (fun x v => Host.reduce IntOp.andi x v reducesTo_S2048x300_S_d0_1 h_S_) main_v6 main_c_1
  let main_v8 : IVec S_ 1 := andi main_v3 main_v7
  let main_v9 : FVec F S300x64 .f32 := Host.absf main_arg2
  let main_cst_2 : FVec F S_ .f32 := constant S_ .f32 0x7F800000#32
  let main_v10 : FVec F S300x64 .f32 := broadcastInDim S300x64 ![] bcast_S_S300x64 main_cst_2
  let main_v11 : IVec S300x64 1 := cmpf .olt main_v9 main_v10
  let main_c_3 : IVec S_ 1 := constantI S_ 1 1#1
  let main_v12 : IVec S_ 1 := (fun x v => Host.reduce IntOp.andi x v reducesTo_S300x64_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_v13 main_v16
-- ==== Kernel.lean ====
abbrev S2048x64 : Shape := ⟨2, ![2048, 64]⟩
abbrev S2048x300 : Shape := ⟨2, ![2048, 300]⟩
abbrev S300x64 : Shape := ⟨2, ![300, 64]⟩
abbrev S300 : Shape := ⟨1, ![300]⟩
abbrev S64x300 : Shape := ⟨2, ![64, 300]⟩
abbrev S2048x300x300 : Shape := ⟨3, ![2048, 300, 300]⟩
abbrev S16x64 : Shape := ⟨2, ![16, 64]⟩
abbrev S16x300 : Shape := ⟨2, ![16, 300]⟩
abbrev S16x300x300 : Shape := ⟨3, ![16, 300, 300]⟩
abbrev S1x300 : Shape := ⟨2, ![1, 300]⟩
abbrev S300x300 : Shape := ⟨2, ![300, 300]⟩
abbrev S16x300x1 : Shape := ⟨3, ![16, 300, 1]⟩
abbrev S1x300x300 : Shape := ⟨3, ![1, 300, 300]⟩

abbrev nBuf : Space → Nat
  | .hbm => 10
  | .vmem => 12
  | .smem => 0
  | _ => 0

abbrev bufTy : (tb : Table) → Fin (tcTables nBuf tb) → BufTy
  | .hbm, ⟨0, _⟩ => ⟨S2048x64, .f32⟩
  | .hbm, ⟨1, _⟩ => ⟨S2048x300, .f32⟩
  | .hbm, ⟨2, _⟩ => ⟨S300x64, .f32⟩
  | .hbm, ⟨3, _⟩ => ⟨S300, .f32⟩
  | .hbm, ⟨4, _⟩ => ⟨S300x64, .f32⟩
  | .hbm, ⟨5, _⟩ => ⟨S300, .f32⟩
  | .hbm, ⟨6, _⟩ => ⟨S64x300, .f32⟩
  | .hbm, ⟨7, _⟩ => ⟨S64x300, .f32⟩
  | .hbm, ⟨8, _⟩ => ⟨S2048x300x300, .f32⟩
  | .hbm, ⟨9, _⟩ => ⟨S2048x300, .f32⟩
  | .local _ .vmem, ⟨0, _⟩ => ⟨S16x64, .f32⟩
  | .local _ .vmem, ⟨1, _⟩ => ⟨S16x64, .f32⟩
  | .local _ .vmem, ⟨2, _⟩ => ⟨S16x300, .f32⟩
  | .local _ .vmem, ⟨3, _⟩ => ⟨S16x300, .f32⟩
  | .local _ .vmem, ⟨4, _⟩ => ⟨S64x300, .f32⟩
  | .local _ .vmem, ⟨5, _⟩ => ⟨S300, .f32⟩
  | .local _ .vmem, ⟨6, _⟩ => ⟨S64x300, .f32⟩
  | .local _ .vmem, ⟨7, _⟩ => ⟨S300, .f32⟩
  | .local _ .vmem, ⟨8, _⟩ => ⟨S16x300x300, .f32⟩
  | .local _ .vmem, ⟨9, _⟩ => ⟨S16x300x300, .f32⟩
  | .local _ .vmem, ⟨10, _⟩ => ⟨S16x300, .f32⟩
  | .local _ .vmem, ⟨11, _⟩ => ⟨S16x300, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x300x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x300 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S300x64_S64x300_1_0 : S300x64.Transposes [1, 0] S64x300
  inb_S16x64_S16x64_0_0 : ∀ a, (![0, 0] : Fin 2 → Nat) a + S16x64.size a ≤ S16x64.size a
  h_S16x64 : 0 < S16x64.numel
  inb_S64x300_S64x300_0_0 : ∀ a, (![0, 0] : Fin 2 → Nat) a + S64x300.size a ≤ S64x300.size a
  h_S64x300 : 0 < S64x300.numel
  shapeCasts_S64x300_S64x300 : S64x300.ShapeCasts S64x300
  inb_S300_S300_0 : ∀ a, (![0] : Fin 1 → Nat) a + S300.size a ≤ S300.size a
  h_S300 : 0 < S300.numel
  shapeCasts_S300_S1x300 : S300.ShapeCasts S1x300
  broadcasts_S1x300_S16x300 : S1x300.Broadcasts S16x300
  inb_S16x300_S16x300_0_0 : ∀ a, (![0, 0] : Fin 2 → Nat) a + S16x300.size a ≤ S16x300.size a
  h_S16x300 : 0 < S16x300.numel
  iota_S300x300_d0_w32 : S300x300.Iotas .tc 32 [0]
  iota_S300x300_d1_w32 : S300x300.Iotas .tc 32 [1]
  natLt_1_32 : 1 < 32
  shapeCasts_S16x300_S16x300x1 : S16x300.ShapeCasts S16x300x1
  shapeCasts_S300x300_S1x300x300 : S300x300.ShapeCasts S1x300x300
  broadcasts_S16x300x1_S16x300x300 : S16x300x1.Broadcasts S16x300x300
  broadcasts_S1x300x300_S16x300x300 : S1x300x300.Broadcasts S16x300x300
  inb_S16x300x300_S16x300x300_0_0_0 : ∀ a, (![0, 0, 0] : Fin 3 → Nat) a + S16x300x300.size a ≤ S16x300x300.size a
  h_S16x300x300 : 0 < S16x300x300.numel
  dot_S16x64_S64x300_S16x300_1_0_0_1_n_n_wf : DotDims.WF S16x64 S64x300 S16x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64.size a ≤ S2048x64.size a
  hwx0_0 : ∀ i : grid0.Coords, EltTy.bits .f32 = 32 ∨ (Rect.block (s := S2048x64) S16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x300.size a ≤ S2048x300.size a
  hwx0_1 : ∀ i : grid0.Coords, EltTy.bits .f32 = 32 ∨ (Rect.block (s := S2048x300) S16x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x300.size a ≤ S64x300.size a
  hwx0_2 : ∀ i : grid0.Coords, EltTy.bits .f32 = 32 ∨ (Rect.block (s := S64x300) S64x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300.size a ≤ S300.size a
  hwx0_3 : ∀ i : grid0.Coords, EltTy.bits .f32 = 32 ∨ (Rect.block (s := S300) S300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x300.size a ≤ S64x300.size a
  hwx0_4 : ∀ i : grid0.Coords, EltTy.bits .f32 = 32 ∨ (Rect.block (s := S64x300) S64x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300.size a ≤ S300.size a
  hwx0_5 : ∀ i : grid0.Coords, EltTy.bits .f32 = 32 ∨ (Rect.block (s := S300) S300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x300x300.size a ≤ S2048x300x300.size a
  hwx0_6 : ∀ i : grid0.Coords, EltTy.bits .f32 = 32 ∨ (Rect.block (s := S2048x300x300) S16x300x300.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x300.size a ≤ S2048x300.size a
  hwx0_7 : ∀ i : grid0.Coords, EltTy.bits .f32 = 32 ∨ (Rect.block (s := S2048x300) S16x300.size (cc0_transform_7 i) (hinb0_7 i)).WholeWords (EltTy.packing .f32)

variable [Facts₀]

def dot_S16x64_S64x300_S16x300_1_0_0_1_n_n : DotDims S16x64 S64x300 S16x300 where
  lhsContracting := [1]
  rhsContracting := [0]
  lhsNonContracting := [0]
  rhsNonContracting := [1]
  lhsBatch := []
  rhsBatch := []
  wf := dot_S16x64_S64x300_S16x300_1_0_0_1_n_n_wf

abbrev win0_0 : Pipeline.Window sig grid0 :=
  Pipeline.Window.ofSpec (Memref.whole main_arg0) S16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S16x300x300.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S16x300.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x300 : Shape := ⟨2, ![2048, 300]⟩
abbrev S300x64 : Shape := ⟨2, ![300, 64]⟩
abbrev S300 : Shape := ⟨1, ![300]⟩
abbrev S64x300 : Shape := ⟨2, ![64, 300]⟩
abbrev S1x300 : Shape := ⟨2, ![1, 300]⟩
abbrev S300x300 : Shape := ⟨2, ![300, 300]⟩
abbrev S_ : Shape := ⟨0, ![]⟩
abbrev S2048x300x1 : Shape := ⟨3, ![2048, 300, 1]⟩
abbrev S1x300x300 : Shape := ⟨3, ![1, 300, 300]⟩
abbrev S2048x300x300 : Shape := ⟨3, ![2048, 300, 300]⟩

abbrev nBuf : Space → Nat
  | .hbm => 33
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x300, .f32⟩
  | .hbm, ⟨2, _⟩ => ⟨S300x64, .f32⟩
  | .hbm, ⟨3, _⟩ => ⟨S300, .f32⟩
  | .hbm, ⟨4, _⟩ => ⟨S300x64, .f32⟩
  | .hbm, ⟨5, _⟩ => ⟨S300, .f32⟩
  | .hbm, ⟨6, _⟩ => ⟨S64x300, .f32⟩
  | .hbm, ⟨7, _⟩ => ⟨S2048x300, .f32⟩
  | .hbm, ⟨8, _⟩ => ⟨S1x300, .f32⟩
  | .hbm, ⟨9, _⟩ => ⟨S2048x300, .f32⟩
  | .hbm, ⟨10, _⟩ => ⟨S2048x300, .f32⟩
  | .hbm, ⟨11, _⟩ => ⟨S64x300, .f32⟩
  | .hbm, ⟨12, _⟩ => ⟨S2048x300, .f32⟩
  | .hbm, ⟨13, _⟩ => ⟨S1x300, .f32⟩
  | .hbm, ⟨14, _⟩ => ⟨S2048x300, .f32⟩
  | .hbm, ⟨15, _⟩ => ⟨S2048x300, .f32⟩
  | .hbm, ⟨16, _⟩ => ⟨S2048x300, .f32⟩
  | .hbm, ⟨17, _⟩ => ⟨S2048x300, .f32⟩
  | .hbm, ⟨18, _⟩ => ⟨S300x300, .i32⟩
  | .hbm, ⟨19, _⟩ => ⟨S300x300, .i32⟩
  | .hbm, ⟨20, _⟩ => ⟨S_, .i32⟩
  | .hbm, ⟨21, _⟩ => ⟨S300x300, .i32⟩
  | .hbm, ⟨22, _⟩ => ⟨S300x300, .i32⟩
  | .hbm, ⟨23, _⟩ => ⟨S300x300, .i1⟩
  | .hbm, ⟨24, _⟩ => ⟨S300x300, .f32⟩
  | .hbm, ⟨25, _⟩ => ⟨S_, .f32⟩
  | .hbm, ⟨26, _⟩ => ⟨S2048x300, .f32⟩
  | .hbm, ⟨27, _⟩ => ⟨S2048x300, .f32⟩
  | .hbm, ⟨28, _⟩ => ⟨S2048x300x1, .f32⟩
  | .hbm, ⟨29, _⟩ => ⟨S1x300x300, .f32⟩
  | .hbm, ⟨30, _⟩ => ⟨S2048x300x300, .f32⟩
  | .hbm, ⟨31, _⟩ => ⟨S2048x300x300, .f32⟩
  | .hbm, ⟨32, _⟩ => ⟨S2048x300x300, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  transposes_S300x64_S64x300_1_0 : S300x64.Transposes [1, 0] S64x300
  bcast_S300_S1x300_1 : S300.BroadcastsInDim S1x300 (![1] : Fin 1 → Fin S1x300.rank)
  bcast_S1x300_S2048x300_0_1 : S1x300.BroadcastsInDim S2048x300 (![0, 1] : Fin 2 → Fin S2048x300.rank)
  bcast_S_S300x300 : S_.BroadcastsInDim S300x300 (![] : Fin 0 → Fin S300x300.rank)
  bcast_S_S2048x300 : S_.BroadcastsInDim S2048x300 (![] : Fin 0 → Fin S2048x300.rank)
  bcast_S2048x300_S2048x300x1_0_1 : S2048x300.BroadcastsInDim S2048x300x1 (![0, 1] : Fin 2 → Fin S2048x300x1.rank)
  bcast_S300x300_S1x300x300_1_2 : S300x300.BroadcastsInDim S1x300x300 (![1, 2] : Fin 2 → Fin S1x300x300.rank)
  bcast_S2048x300x1_S2048x300x300_0_1_2 : S2048x300x1.BroadcastsInDim S2048x300x300 (![0, 1, 2] : Fin 3 → Fin S2048x300x300.rank)
  bcast_S1x300x300_S2048x300x300_0_1_2 : S1x300x300.BroadcastsInDim S2048x300x300 (![0, 1, 2] : Fin 3 → Fin S2048x300x300.rank)
  dot_S2048x64_S64x300_S2048x300_1_0_0_1_n_n_wf : DotDims.WF S2048x64 S64x300 S2048x300 [1] [0] [0] [1] [] []

variable [Facts₀]

def dot_S2048x64_S64x300_S2048x300_1_0_0_1_n_n : DotDims S2048x64 S64x300 S2048x300 where
  lhsContracting := [1]
  rhsContracting := [0]
  lhsNonContracting := [0]
  rhsNonContracting := [1]
  lhsBatch := []
  rhsBatch := []
  wf := dot_S2048x64_S64x300_S2048x300_1_0_0_1_n_n_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibTrailingUnit.lean ====
/-
  A per-row statistic laid along the diagonal of a square block, or scaled against a fixed square matrix, is written
  `x[:, :, None] * e[None, :, :]`: the `[a, b]` array gets a trailing unit axis and is stretched along it, the `[b, c]`
  matrix gets a leading unit axis and is repeated over it. Read at an index given by coordinates:
  • the cast `[a, b] → [a, b, 1]` at `(i, j, u)` is the array at `(i, j)` (the unit coordinate `u` carries nothing);
  • the stretch `[a, b, 1] → [a, b, c]` at `(i, j, k)` is the operand at `(i, j, 0)`: the last coordinate is forgotten;
  • the repeat `[1, b, c] → [a, b, c]` at `(i, j, k)` is the operand at `(0, j, k)`: the first coordinate is forgotten.
-/
import Idealize.ShloMosaic.Lib.ValueLayout

namespace Cert.TrailingUnit

open Idealize.ShloMosaic Idealize.ShloMosaic.ValueIdx

variable {α : Type}

/-- An `[a, b]` array cast to `[a, b, 1]` reads, at `(i, j, u)`, the operand at `(i, j)`, whatever the unit coordinate `u`:
    both positions are `i · b + j` in row-major order. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array stretched to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array repeated to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.TrailingUnit
-- ==== Proof.LibOneHot.lean ====
/-
  One-hot rows and sums against them, on the extended reals.

  A one-hot row for a 32-bit word `w` has the entry `1` at the position `v` whose 32-bit numeral is `w` and `0` everywhere
  else. A vector unit builds the entry by comparing, widening the one-bit answer to a word and converting the word
  signed; a host program converts the one-bit answer unsigned. Both give the number of the answer bit (`hot_of_widened`,
  `hot_of_bit`), which is `0` or `1` (`hot_eq_ite`).

  A sum of products over `n + p` positions whose last `p` terms vanish is the sum over the first `n`
  (`sum_zero_tail`): what is left of a table padded with `p` zero rows when it is contracted against any row, since
  `x * 0 = 0` for every extended real `x`, the infinities included (`sum_mul_padded`).

  `lookup tok tab` is the embedding lookup written as the one-hot product: for a B x S array of token words and a
  V x D table, entry (a, b, d) is the sum over the table's rows v of (one-hot row of token (a, b) at v) times (table
  entry (v, d)) — the table's row numbered by the token when that number is below V, and zero otherwise.
-/
import Idealize.ShloMosaic.PureOps.Ideal
import Idealize.ShloMosaic.Lib.KernelVsHost
import Idealize.ShloMosaic.Lib.ValueIdx

noncomputable section

open scoped BigOperators

namespace OneHotSum

open Idealize.ShloMosaic

/-- Entry `v` of the one-hot row for the word `w`: the answer bit of "`w` is the 32-bit numeral of `v`", as a number. -/
def hot (w : BitVec 32) (v : Nat) : EReal := (((IntOp.cmpi .eq w (BitVec.ofNat 32 v)).toNat : ℝ) : EReal)

/-- It is `1` where the word is the position's numeral and `0` elsewhere. -/
theorem hot_eq_ite (w : BitVec 32) (v : Nat) : hot w v = if w = BitVec.ofNat 32 v then 1 else 0 := by
  unfold hot IntOp.cmpi
  by_cases h : w = BitVec.ofNat 32 v
  · simp [h]
  · simp [h]

/-- The host's conversion of the answer bit, read unsigned, is the entry. -/
theorem hot_of_bit (w : BitVec 32) (v : Nat) :
    FloatOps.uitofp (F := Ideal) .f32 (IntOp.cmpi .eq w (BitVec.ofNat 32 v)) = hot w v := rfl

/-- The vector unit's conversion — the answer bit widened to a word, the word read signed — is the entry. -/
theorem hot_of_widened (w : BitVec 32) (v : Nat) :
    FloatOps.sitofp (F := Ideal) .f32 ((IntOp.cmpi .eq w (BitVec.ofNat 32 v)).setWidth 32) = hot w v := by
  show (((((IntOp.cmpi .eq w (BitVec.ofNat 32 v)).setWidth 32).toInt : ℤ) : ℝ) : EReal) = _
  rw [toInt_setWidth_bit]
  unfold hot
  norm_cast

/-- A sum over `n + p` positions whose last `p` terms are zero is the sum over the first `n`. -/
theorem sum_zero_tail {M : Type*} [AddCommMonoid M] {n p : Nat} (f : Fin (n + p) → M)
    (h : ∀ j : Fin p, f (Fin.natAdd n j) = 0) : ∑ k, f k = ∑ v : Fin n, f (Fin.castAdd p v) := by
  rw [Fin.sum_univ_add, Finset.sum_eq_zero (fun j _ => h j), add_zero]

/-- A row contracted against a table whose last `p` rows are zero: only the first `n` rows count, whatever the row holds. -/
theorem sum_mul_padded {n p : Nat} (a b : Fin (n + p) → EReal) (hb : ∀ j : Fin p, b (Fin.natAdd n j) = 0) :
    ∑ k, a k * b k = ∑ v : Fin n, a (Fin.castAdd p v) * b (Fin.castAdd p v) :=
  sum_zero_tail (fun k => a k * b k) fun j => by rw [hb j, mul_zero]

/-- The embedding lookup as a one-hot product: entry (a, b, d) sums, over the table's rows, token (a, b)'s one-hot row
    times column d. -/
def lookup {B S V D : Nat} (tok : (⟨2, ![B, S]⟩ : Shape).Idx → BitVec 32) (tab : (⟨2, ![V, D]⟩ : Shape).Idx → EReal) :
    (⟨3, ![B, S, D]⟩ : Shape).Idx → EReal :=
  fun i => ∑ v : Fin V, hot (tok (ValueIdx.ix2 (i 0) (i 1))) v.val * tab (ValueIdx.ix2 v (i 2))

end OneHotSum

end
-- ==== Proof.KernelSide.lean ====
/-
  The kernel body's two stored values, read at one entry of the block they fill.

  At a grid point the body holds a 16-row block `x` of the batch, the two transposed weight matrices (64 × 300), the two
  biases and a 16-row block of the labels. Each affine layer is one matrix product into a zero accumulator plus the bias
  repeated over the rows, so its entry `(a, p)` is `Σₖ x[a, k] · w[k, p] + β[p]` (`affine_apply`).
  • The residual block's entry `(a, p)` is the label there minus the mean layer's entry (`pay1_apply`).
  • The covariance block's entry `(a, p, q)` is `1 / s²` for the scale layer's entry `s` at `(a, p)` — given a trailing unit
    axis and stretched along it, so `q` is forgotten — times the identity matrix's entry `(p, q)` — given a leading unit
    axis and repeated over it, so `a` is forgotten. The identity's entry is the answer bit of "the row's numeral is the
    column's", widened to a word and read signed: its number (`pay2_apply`).
-/
import proofs.«136728_j28604482192086_1_alg».proof.Proof.Gen.KernelIdeal.Skeleton
import proofs.«136728_j28604482192086_1_alg».proof.Proof.LibPlainMatmul
import proofs.«136728_j28604482192086_1_alg».proof.Proof.LibTrailingUnit
import proofs.«136728_j28604482192086_1_alg».proof.Proof.LibOneHot
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- Entry `(a, p)` of an affine layer on a block: the row of `x` against the column of `w`, plus the bias at `p`. -/
theorem affine_apply (x : FVec Ideal S16x64 .f32) (w : FVec Ideal S64x300 .f32) (β : FVec Ideal S300 .f32) (a : Fin 16) (p : Fin 300) :
    addf (F := Ideal) (matmul (F := Ideal) dot_S16x64_S64x300_S16x300_1_0_0_1_n_n (some .fp32) x (shapeCast S64x300 w shapeCasts_S64x300_S64x300) (constant (F := Ideal) S16x300 .f32 0x00000000#32))
        (broadcastTo S16x300 (shapeCast S1x300 β shapeCasts_S300_S1x300) broadcasts_S1x300_S16x300) (ix2 a p)
      = (∑ k : Fin 64, x (ix2 a k) * w (ix2 k p)) + β (ix1 p) := by
  rw [addf_apply, shapeCast_self]
  refine congrArg₂ (· + ·) ?_ ?_
  · exact PlainMatmul.matmul_plain_zero_apply 16 64 300 (some .fp32) x w a p
  · rw [broadcastTo_1b_ab_apply, shapeCast_a_1a_apply]

/-- The residual block at `(a, p)`. -/
theorem pay1_apply (v0 : Vec Ideal S16x64 .f32) (v1 : Vec Ideal S64x300 .f32) (v4 : Vec Ideal S300 .f32) (v17 : Vec Ideal S16x300 .f32)
    (a : Fin 16) (p : Fin 300) :
    k0_pay1 v0 v1 v4 v17 (ix2 a p) = v17 (ix2 a p) - ((∑ k : Fin 64, v0 (ix2 a k) * v1 (ix2 k p)) + v4 (ix1 p)) := by
  unfold k0_pay1
  rw [subf_apply, affine_apply]

/-- The identity matrix's entry `(p, q)` as the body builds it. -/
theorem eye_apply (p q : Fin 300) :
    (sitofp .f32 (extui 32 (cmpi .eq (iota .tc S300x300 32 [0] iota_S300x300_d0_w32) (iota .tc S300x300 32 [1] iota_S300x300_d1_w32)) natLt_1_32) : FVec Ideal S300x300 .f32) (ix2 p q)
      = OneHotSum.hot (BitVec.ofNat 32 p.val) q.val := by
  rw [sitofp_apply, extui_apply]
  show FloatOps.sitofp (F := Ideal) .f32 ((IntOp.cmpi .eq (iota .tc S300x300 32 [0] iota_S300x300_d0_w32 (ix2 p q)) (iota .tc S300x300 32 [1] iota_S300x300_d1_w32 (ix2 p q))).setWidth 32) = _
  rw [iota_single_apply, iota_single_apply]
  exact OneHotSum.hot_of_widened _ _

/-- The covariance block at `(a, p, q)`. -/
theorem pay2_apply (v8 : Vec Ideal S16x64 .f32) (v9 : Vec Ideal S64x300 .f32) (v12 : Vec Ideal S300 .f32) (a : Fin 16) (p q : Fin 300) :
    k0_pay2 v8 v9 v12 (ix3 a p q)
      = Ideal.div (Ideal.ofBits .f32 0x3F800000#32)
          (((∑ k : Fin 64, v8 (ix2 a k) * v9 (ix2 k p)) + v12 (ix1 p)) * ((∑ k : Fin 64, v8 (ix2 a k) * v9 (ix2 k p)) + v12 (ix1 p)))
        * OneHotSum.hot (BitVec.ofNat 32 p.val) q.val := by
  unfold k0_pay2
  rw [mulf_apply]
  refine congrArg₂ (· * ·) ?_ ?_
  · rw [TrailingUnit.broadcastTo_ab1_abc_apply, TrailingUnit.shapeCast_ab_ab1_apply, divf_apply, mulf_apply, affine_apply]
    rfl
  · rw [TrailingUnit.broadcastTo_1bc_abc_apply, shapeCast_ab_1ab_apply]
    exact eye_apply p q

end Cert.KernelIdeal.Body

end
-- ==== Proof.Spec.lean ====
/-
  What the decoder computes, entry by entry, on the extended reals.

  Two affine layers read the batch `b` (2048 rows of 64 features): for a weight matrix `w` (300 rows of 64) and a bias
  `β` (300 entries), `layer b w β r d = Σₖ b[r, k] · w[d, k] + β[d]` (the weights enter transposed: row `d` of `w` is
  contracted against row `r` of `b`).
  • The residual: `labels[r, d] − layer b μ_w μ_b r d`.
  • The inverse covariance: sample `r` gets the 300 × 300 diagonal matrix whose `d`-th diagonal entry is
    `1 / (layer b σ_w σ_b r d)²`; written as a product with the identity matrix, entry `(r, d, e)` is that quotient times
    the identity's entry `(d, e)` — the number of the answer bit of "`d` and `e` are one 32-bit numeral".
  The quotient is the extended reals' total one (`Ideal.div`), the numerator the float word of `1.0`, kept as a word.
-/
import Idealize.ShloMosaic.PureOps.Ideal
import Idealize.ShloMosaic.Lib.ValueIdx
import proofs.«136728_j28604482192086_1_alg».proof.Proof.LibOneHot

noncomputable section

open scoped BigOperators

namespace Cert.DiagCov

open Idealize.ShloMosaic Idealize.ShloMosaic.ValueIdx

/-- One entry of an affine layer: row `r` of the batch against row `d` of the weights, plus the bias at `d`. -/
def layer (b : FVec Ideal ⟨2, ![2048, 64]⟩ .f32) (w : FVec Ideal ⟨2, ![300, 64]⟩ .f32) (β : FVec Ideal ⟨1, ![300]⟩ .f32)
    (r : Fin 2048) (d : Fin 300) : EReal :=
  (∑ k : Fin 64, b (ix2 r k) * w (ix2 d k)) + β (ix1 d)

/-- The residual of the labels against the mean layer. -/
def residual (b : FVec Ideal ⟨2, ![2048, 64]⟩ .f32) (labels : FVec Ideal ⟨2, ![2048, 300]⟩ .f32)
    (μw : FVec Ideal ⟨2, ![300, 64]⟩ .f32) (μb : FVec Ideal ⟨1, ![300]⟩ .f32) : FVec Ideal ⟨2, ![2048, 300]⟩ .f32 :=
  fun i => labels (ix2 (i 0) (i 1)) - layer b μw μb (i 0) (i 1)

/-- The reciprocal of the squared scale layer at sample `r`, coordinate `d`. -/
def invVar (b : FVec Ideal ⟨2, ![2048, 64]⟩ .f32) (σw : FVec Ideal ⟨2, ![300, 64]⟩ .f32) (σb : FVec Ideal ⟨1, ![300]⟩ .f32)
    (r : Fin 2048) (d : Fin 300) : EReal :=
  Ideal.div (Ideal.ofBits .f32 0x3F800000#32) (layer b σw σb r d * layer b σw σb r d)

/-- The per-sample diagonal inverse covariance: the reciprocal variance of `(r, d)` times the identity's entry `(d, e)`. -/
def diagInv (b : FVec Ideal ⟨2, ![2048, 64]⟩ .f32) (σw : FVec Ideal ⟨2, ![300, 64]⟩ .f32) (σb : FVec Ideal ⟨1, ![300]⟩ .f32) :
    FVec Ideal ⟨3, ![2048, 300, 300]⟩ .f32 :=
  fun i => invVar b σw σb (i 0) (i 1) * OneHotSum.hot (BitVec.ofNat 32 (i 1).val) (i 2).val

end Cert.DiagCov

end
-- ==== Proof.Blocks.lean ====
/-
  From the kernel's blocks to its two result arrays.

  The grid has 128 points; point `t` stages rows `16 t … 16 t + 15` of the batch and of the labels, the two weight matrices
  (transposed by the host before the launch, so the staged `(k, p)` is the argument's `(p, k)`) and the two biases whole,
  and writes back rows `16 t … 16 t + 15` of both results. So an entry of a staged block is an entry of an argument
  (`batch_block` … `sbias_block`), the block point `t` writes back is the decoder's function of the arguments read through
  that block (`written_residual`, `written_diagInv`: the body's entry from the body lemmas, row `16 t + a` in place of the
  block row `a`), the 128 blocks cover every row (`row_covered`), and the arrays end holding the decoder's two functions.
-/
import proofs.«136728_j28604482192086_1_alg».proof.Proof.Gen.KernelIdeal.Value
import proofs.«136728_j28604482192086_1_alg».proof.Proof.KernelSide
import proofs.«136728_j28604482192086_1_alg».proof.Proof.Spec
import Idealize.ShloMosaic.Lib.Pipeline.Value
import Idealize.ShloMosaic.Lib.ValueLayout
import Idealize.ShloMosaic.Lib.StableHlo.Run

noncomputable section

open scoped BigOperators

namespace Cert.KernelIdeal.Arrays

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 128 points: the row windows sit at block row `t`, the whole-array windows at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0
    ∧ win0_7.index t (0 : Fin 2) = t.val ∧ win0_7.index t (1 : Fin 2) = 0 :=
  (by decide +kernel : ∀ t : Fin grid0.N, _)

/-- Row `a` of point `t`'s blocks is row `16 t + a` of the arrays. -/
def row (t : Fin cfg0.N) (a : Fin 16) : Fin 2048 :=
  ⟨16 * t.val + a.val, by have h : t.val < 128 := Nat.lt_of_lt_of_eq t.isLt N_0; have := a.isLt; omega⟩

/-! ## What the region finds in the two arrays the host wrote -/

theorem V_main_v0 (c : Dev nD) :
    (V m c main_v0 : S64x300.Idx → EReal) = transpose S64x300 [1, 0] (m ((c : Thread nD τ).loc main_arg2)) transposes_S300x64_S64x300_1_0 := by
  dsimp only [V, hostOps0]; after_results

theorem V_main_v1 (c : Dev nD) :
    (V m c main_v1 : S64x300.Idx → EReal) = transpose S64x300 [1, 0] (m ((c : Thread nD τ).loc main_arg4)) transposes_S300x64_S64x300_1_0 := by
  dsimp only [V, hostOps0]; after_results

/-! ## The staged blocks, entry by entry -/

theorem batch_block (c : Dev nD) (t : Fin cfg0.N) (a : Fin 16) (k : Fin 64) :
    (iblk m c 0 t : Vec Ideal S16x64 .f32) (ix2 a k) = (m ((c : Thread nD τ).loc main_arg0) : S2048x64.Idx → EReal) (ix2 (row t a) k) := by
  obtain ⟨e0, e1, -⟩ := idx_facts t
  unfold iblk
  rw [View.read_apply]
  show V m c main_arg0 _ = _
  rw [V_main_arg0]
  refine congrArg _ (funext fun ax => Fin.ext ?_)
  match ax with
  | ⟨0, _⟩ => show win0_0.index t (0 : Fin 2) * 16 + 1 * a.val = 16 * t.val + a.val; rw [e0]; omega
  | ⟨1, _⟩ => show win0_0.index t (1 : Fin 2) * 64 + 1 * k.val = k.val; rw [e1]; omega

theorem labels_block (c : Dev nD) (t : Fin cfg0.N) (a : Fin 16) (p : Fin 300) :
    (iblk m c 1 t : Vec Ideal S16x300 .f32) (ix2 a p) = (m ((c : Thread nD τ).loc main_arg1) : S2048x300.Idx → EReal) (ix2 (row t a) p) := by
  obtain ⟨-, -, e0, e1, -⟩ := idx_facts t
  unfold iblk
  rw [View.read_apply]
  show V m c main_arg1 _ = _
  rw [V_main_arg1]
  refine congrArg _ (funext fun ax => Fin.ext ?_)
  match ax with
  | ⟨0, _⟩ => show win0_1.index t (0 : Fin 2) * 16 + 1 * a.val = 16 * t.val + a.val; rw [e0]; omega
  | ⟨1, _⟩ => show win0_1.index t (1 : Fin 2) * 300 + 1 * p.val = p.val; rw [e1]; omega

theorem mweight_block (c : Dev nD) (t : Fin cfg0.N) (k : Fin 64) (p : Fin 300) :
    (iblk m c 2 t : Vec Ideal S64x300 .f32) (ix2 k p) = (m ((c : Thread nD τ).loc main_arg2) : S300x64.Idx → EReal) (ix2 p k) := by
  obtain ⟨-, -, -, -, e0, e1, -⟩ := idx_facts t
  unfold iblk
  rw [View.read_apply]
  show V m c main_v0 _ = _
  rw [V_main_v0]
  refine (congrArg _ (funext fun ax => Fin.ext ?_)).trans (transpose_ix2_apply _ _ k p)
  match ax with
  | ⟨0, _⟩ => show win0_2.index t (0 : Fin 2) * 64 + 1 * k.val = k.val; rw [e0]; omega
  | ⟨1, _⟩ => show win0_2.index t (1 : Fin 2) * 300 + 1 * p.val = p.val; rw [e1]; omega

theorem mbias_block (c : Dev nD) (t : Fin cfg0.N) (p : Fin 300) :
    (iblk m c 3 t : Vec Ideal S300 .f32) (ix1 p) = (m ((c : Thread nD τ).loc main_arg3) : S300.Idx → EReal) (ix1 p) := by
  obtain ⟨-, -, -, -, -, -, e0, -⟩ := idx_facts t
  unfold iblk
  rw [View.read_apply]
  show V m c main_arg3 _ = _
  rw [V_main_arg3]
  refine congrArg _ (funext fun ax => Fin.ext ?_)
  match ax with
  | ⟨0, _⟩ => show win0_3.index t (0 : Fin 1) * 300 + 1 * p.val = p.val; rw [e0]; omega

theorem sweight_block (c : Dev nD) (t : Fin cfg0.N) (k : Fin 64) (p : Fin 300) :
    (iblk m c 4 t : Vec Ideal S64x300 .f32) (ix2 k p) = (m ((c : Thread nD τ).loc main_arg4) : S300x64.Idx → EReal) (ix2 p k) := by
  obtain ⟨-, -, -, -, -, -, -, e0, e1, -⟩ := idx_facts t
  unfold iblk
  rw [View.read_apply]
  show V m c main_v1 _ = _
  rw [V_main_v1]
  refine (congrArg _ (funext fun ax => Fin.ext ?_)).trans (transpose_ix2_apply _ _ k p)
  match ax with
  | ⟨0, _⟩ => show win0_4.index t (0 : Fin 2) * 64 + 1 * k.val = k.val; rw [e0]; omega
  | ⟨1, _⟩ => show win0_4.index t (1 : Fin 2) * 300 + 1 * p.val = p.val; rw [e1]; omega

theorem sbias_block (c : Dev nD) (t : Fin cfg0.N) (p : Fin 300) :
    (iblk m c 5 t : Vec Ideal S300 .f32) (ix1 p) = (m ((c : Thread nD τ).loc main_arg5) : S300.Idx → EReal) (ix1 p) := by
  obtain ⟨-, -, -, -, -, -, -, -, -, e0, -⟩ := idx_facts t
  unfold iblk
  rw [View.read_apply]
  show V m c main_arg5 _ = _
  rw [V_main_arg5]
  refine congrArg _ (funext fun ax => Fin.ext ?_)
  match ax with
  | ⟨0, _⟩ => show win0_5.index t (0 : Fin 1) * 300 + 1 * p.val = p.val; rw [e0]; omega

/-! ## What each point writes back -/

/-- Point `t` writes back rows `16 t … 16 t + 15` of the residual. -/
theorem written_residual (c : Dev nD) (t : Fin cfg0.N) :
    (dats m 0 c).flushed 7 t = ((cfg0.win 7).blk t).view.read (Elt Ideal)
      (DiagCov.residual (m ((c : Thread nD τ).loc main_arg0)) (m ((c : Thread nD τ).loc main_arg1)) (m ((c : Thread nD τ).loc main_arg2)) (m ((c : Thread nD τ).loc main_arg3))) := by
  obtain ⟨-, -, -, -, -, -, -, -, -, -, -, -, -, e0, e1⟩ := idx_facts t
  rw [Value.flushed7]
  unfold out0_7
  rw [View.canon_unit_zero hz2]
  simp only [View.ld_unit_zero (S := S16x64) hz2, View.ld_unit_zero (S := S64x300) hz2, View.ld_unit_zero (S := S300) hz1,
    View.ld_unit_zero (S := S16x300) hz2]
  funext j
  obtain ⟨a, p, rfl⟩ : ∃ (a : Fin 16) (p : Fin 300), j = ix2 a p := ⟨j 0, j 1, eq_ix2 j⟩
  have hemb : ((cfg0.win 7).blk t).view.emb (ix2 a p) = (ix2 (row t a) p : S2048x300.Idx) := by
    funext ax; apply Fin.ext
    match ax with
    | ⟨0, _⟩ => show win0_7.index t (0 : Fin 2) * 16 + 1 * a.val = 16 * t.val + a.val; rw [e0]; omega
    | ⟨1, _⟩ => show win0_7.index t (1 : Fin 2) * 300 + 1 * p.val = p.val; rw [e1]; omega
  rw [View.read_apply, hemb]
  show k0_pay1 (iblk m c 0 t) (iblk m c 2 t) (iblk m c 3 t) (iblk m c 1 t) (ix2 a p) = _
  refine (Body.pay1_apply (iblk m c 0 t) (iblk m c 2 t) (iblk m c 3 t) (iblk m c 1 t) a p).trans ?_
  rw [labels_block, mbias_block]
  simp only [batch_block, mweight_block]
  rfl

/-- Point `t` writes back samples `16 t … 16 t + 15` of the diagonal inverse covariance. -/
theorem written_diagInv (c : Dev nD) (t : Fin cfg0.N) :
    (dats m 0 c).flushed 6 t = ((cfg0.win 6).blk t).view.read (Elt Ideal)
      (DiagCov.diagInv (m ((c : Thread nD τ).loc main_arg0)) (m ((c : Thread nD τ).loc main_arg4)) (m ((c : Thread nD τ).loc main_arg5))) := by
  obtain ⟨-, -, -, -, -, -, -, -, -, -, e0, e1, e2, -⟩ := idx_facts t
  rw [Value.flushed6]
  unfold out0_6
  rw [View.canon_unit_zero hz3]
  simp only [View.ld_unit_zero (S := S16x64) hz2, View.ld_unit_zero (S := S64x300) hz2, View.ld_unit_zero (S := S300) hz1]
  funext j
  obtain ⟨a, p, q, rfl⟩ : ∃ (a : Fin 16) (p q : Fin 300), j = ix3 a p q := ⟨j 0, j 1, j 2, eq_ix3 j⟩
  have hemb : ((cfg0.win 6).blk t).view.emb (ix3 a p q) = (ix3 (row t a) p q : S2048x300x300.Idx) := by
    funext ax; apply Fin.ext
    match ax with
    | ⟨0, _⟩ => show win0_6.index t (0 : Fin 3) * 16 + 1 * a.val = 16 * t.val + a.val; rw [e0]; omega
    | ⟨1, _⟩ => show win0_6.index t (1 : Fin 3) * 300 + 1 * p.val = p.val; rw [e1]; omega
    | ⟨2, _⟩ => show win0_6.index t (2 : Fin 3) * 300 + 1 * q.val = q.val; rw [e2]; omega
  rw [View.read_apply, hemb]
  show k0_pay2 (iblk m c 0 t) (iblk m c 4 t) (iblk m c 5 t) (ix3 a p q) = _
  refine (Body.pay2_apply (iblk m c 0 t) (iblk m c 4 t) (iblk m c 5 t) a p q).trans ?_
  rw [sbias_block]
  simp only [batch_block, sweight_block]
  rfl

/-! ## The blocks cover the arrays -/

/-- The point whose blocks hold row `r`. -/
def pointOf (r : Fin 2048) : Fin cfg0.N :=
  ⟨r.val / 16, by rw [show cfg0.N = 128 from N_0]; have := r.isLt; omega⟩

theorem residual_covered (i : S2048x300.Idx) :
    ∃ t : Fin cfg0.N, (cfg0.win 7).flush t = true ∧ i ∈ ((cfg0.win 7).blk t).view.set := by
  refine ⟨pointOf (i 0), flush0_7 _, ?_⟩
  obtain ⟨-, -, -, -, -, -, -, -, -, -, -, -, -, e0, e1⟩ := idx_facts (pointOf (i 0))
  show i ∈ ((View.whole main_v2_1).slice (win0_7.rect (pointOf (i 0)))).set
  rw [View.set_slice_whole, Rect.mem_set_unit]
  have h0 : (i 0).val < 2048 := (i 0).isLt
  have h1 : (i 1).val < 300 := (i 1).isLt
  have hp : (pointOf (i 0)).val = (i 0).val / 16 := rfl
  intro ax
  match ax with
  | ⟨0, _⟩ =>
    show win0_7.index (pointOf (i 0)) (0 : Fin 2) * 16 ≤ (i 0).val ∧ (i 0).val < win0_7.index (pointOf (i 0)) (0 : Fin 2) * 16 + 16
    rw [e0, hp]; omega
  | ⟨1, _⟩ =>
    show win0_7.index (pointOf (i 0)) (1 : Fin 2) * 300 ≤ (i 1).val ∧ (i 1).val < win0_7.index (pointOf (i 0)) (1 : Fin 2) * 300 + 300
    rw [e1]; omega

theorem diagInv_covered (i : S2048x300x300.Idx) :
    ∃ t : Fin cfg0.N, (cfg0.win 6).flush t = true ∧ i ∈ ((cfg0.win 6).blk t).view.set := by
  refine ⟨pointOf (i 0), flush0_6 _, ?_⟩
  obtain ⟨-, -, -, -, -, -, -, -, -, -, e0, e1, e2, -⟩ := idx_facts (pointOf (i 0))
  show i ∈ ((View.whole main_v2_0).slice (win0_6.rect (pointOf (i 0)))).set
  rw [View.set_slice_whole, Rect.mem_set_unit]
  have h0 : (i 0).val < 2048 := (i 0).isLt
  have h1 : (i 1).val < 300 := (i 1).isLt
  have h2 : (i 2).val < 300 := (i 2).isLt
  have hp : (pointOf (i 0)).val = (i 0).val / 16 := rfl
  intro ax
  match ax with
  | ⟨0, _⟩ =>
    show win0_6.index (pointOf (i 0)) (0 : Fin 3) * 16 ≤ (i 0).val ∧ (i 0).val < win0_6.index (pointOf (i 0)) (0 : Fin 3) * 16 + 16
    rw [e0, hp]; omega
  | ⟨1, _⟩ =>
    show win0_6.index (pointOf (i 0)) (1 : Fin 3) * 300 ≤ (i 1).val ∧ (i 1).val < win0_6.index (pointOf (i 0)) (1 : Fin 3) * 300 + 300
    rw [e1]; omega
  | ⟨2, _⟩ =>
    show win0_6.index (pointOf (i 0)) (2 : Fin 3) * 300 ≤ (i 2).val ∧ (i 2).val < win0_6.index (pointOf (i 0)) (2 : Fin 3) * 300 + 300
    rw [e2]; omega

/-! ## The arrays after the run, and the run -/

theorem final_residual (c : Dev nD) :
    (dats m 0 c).arrAt 7 cfg0.N
      = DiagCov.residual (m ((c : Thread nD τ).loc main_arg0)) (m ((c : Thread nD τ).loc main_arg1)) (m ((c : Thread nD τ).loc main_arg2)) (m ((c : Thread nD τ).loc main_arg3)) :=
  (dats m 0 c).arrAt_eq_of_cover 7 _ (fun t _ => written_residual m c t) residual_covered

theorem final_diagInv (c : Dev nD) :
    (dats m 0 c).arrAt 6 cfg0.N
      = DiagCov.diagInv (m ((c : Thread nD τ).loc main_arg0)) (m ((c : Thread nD τ).loc main_arg4)) (m ((c : Thread nD τ).loc main_arg5)) :=
  (dats m 0 c).arrAt_eq_of_cover 6 _ (fun t _ => written_diagInv m c t) diagInv_covered

/-- The kernel's run: both result arrays at the decoder's functions of the arguments, the arguments unchanged. -/
theorem run : θ_run defs (onTc (τ := τ) (main (F := Ideal))) ⟨m, fun _ => 0, ρ⟩ fun r => ∀ c : Dev nD,
      r.2.mem ((c : Thread nD τ).loc main_v2_0)
        = DiagCov.diagInv (m ((c : Thread nD τ).loc main_arg0)) (m ((c : Thread nD τ).loc main_arg4)) (m ((c : Thread nD τ).loc main_arg5))
      ∧ r.2.mem ((c : Thread nD τ).loc main_v2_1)
        = DiagCov.residual (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_diagInv m c), (h c).2.1.trans (final_residual m c), (h c).2.2⟩)
    (Value.run_blocks m ρ)

end Cert.KernelIdeal.Arrays

end
-- ==== Proof.RefSide.lean ====
/-
  The reference program's two results, read entry by entry, are the decoder's residual and diagonal inverse covariance.

  The host computes each affine layer as a `dot_general` of the batch with the transposed weights plus the bias broadcast
  over the rows; at entry `(r, d)` the contraction runs over the 64 features, the transposed weights read at `(k, d)` are the
  weights at `(d, k)`, and the broadcast bias is the bias at `d` (`mean_apply`, `scale_apply`). The residual subtracts the
  mean layer from the labels entry by entry. The reciprocal variance is the host quotient of the word `1.0` by the squared
  scale layer (`recip_apply`); the identity matrix compares the row numeral (plus a zero word) with the column numeral and
  converts the answer bit unsigned (`eye_apply`); both are broadcast to 2048 × 300 × 300 — the reciprocal forgets the last
  coordinate, the identity the first — and multiplied.
-/
import proofs.«136728_j28604482192086_1_alg».proof.Proof.Gen.ReferenceIdeal.Read
import proofs.«136728_j28604482192086_1_alg».proof.Proof.Spec

noncomputable section

open scoped BigOperators

namespace Cert.ReferenceIdeal.RefValue

open Cert.ReferenceIdeal Cert.ReferenceIdeal.Read Idealize.ShloMosaic Idealize.ShloMosaic.ValueIdx

/-! ## The composed index maps, by coordinates -/

theorem batch_idx_mean (r : Fin 2048) (d : Fin 300) (k : Fin 64) : lidx_main_v1 (ix2 r d) k = ix2 r k :=
  funext fun a => Fin.ext (by match a with | ⟨0, _⟩ => rfl | ⟨1, _⟩ => rfl)

theorem weight_idx_mean (r : Fin 2048) (d : Fin 300) (k : Fin 64) : idx_main_v0 (ridx_main_v1 (ix2 r d) k) = ix2 d k :=
  funext fun a => Fin.ext (by match a with | ⟨0, _⟩ => rfl | ⟨1, _⟩ => rfl)

theorem bias_idx_mean (r : Fin 2048) (d : Fin 300) : idx_main_v2 (idx_main_v3 (ix2 r d)) = ix1 d :=
  funext fun a => Fin.ext (by match a with | ⟨0, _⟩ => rfl)

theorem batch_idx_scale (r : Fin 2048) (d : Fin 300) (k : Fin 64) : lidx_main_v6 (ix2 r d) k = ix2 r k :=
  funext fun a => Fin.ext (by match a with | ⟨0, _⟩ => rfl | ⟨1, _⟩ => rfl)

theorem weight_idx_scale (r : Fin 2048) (d : Fin 300) (k : Fin 64) : idx_main_v5 (ridx_main_v6 (ix2 r d) k) = ix2 d k :=
  funext fun a => Fin.ext (by match a with | ⟨0, _⟩ => rfl | ⟨1, _⟩ => rfl)

theorem bias_idx_scale (r : Fin 2048) (d : Fin 300) : idx_main_v7 (idx_main_v8 (ix2 r d)) = ix1 d :=
  funext fun a => Fin.ext (by match a with | ⟨0, _⟩ => rfl)

theorem recip_idx (r : Fin 2048) (d e : Fin 300) : idx_main_v20 (idx_main_v22 (ix3 r d e)) = ix2 r d :=
  funext fun a => Fin.ext (by match a with | ⟨0, _⟩ => rfl | ⟨1, _⟩ => rfl)

theorem eye_idx (r : Fin 2048) (d e : Fin 300) : idx_main_v21 (idx_main_v23 (ix3 r d e)) = ix2 d e :=
  funext fun a => Fin.ext (by match a with | ⟨0, _⟩ => rfl | ⟨1, _⟩ => rfl)

/-! ## The stages at an entry -/

/-- The mean layer at `(r, d)`. -/
theorem mean_apply (x0 : (⟨S2048x64, .f32⟩ : BufTy).Contents (Elt Ideal)) (x2 : (⟨S300x64, .f32⟩ : BufTy).Contents (Elt Ideal))
    (x3 : (⟨S300, .f32⟩ : BufTy).Contents (Elt Ideal)) (r : Fin 2048) (d : Fin 300) :
    val_main_v4 (F := Ideal) x0 x2 x3 (ix2 r d) = DiagCov.layer x0 x2 x3 r d := by
  rw [val_main_v4_apply, val_main_v1_apply, val_main_v3_apply, val_main_v2_apply]
  simp only [val_main_v0_apply, batch_idx_mean, weight_idx_mean, bias_idx_mean]
  rfl

/-- The scale layer at `(r, d)`. -/
theorem scale_apply (x0 : (⟨S2048x64, .f32⟩ : BufTy).Contents (Elt Ideal)) (x4 : (⟨S300x64, .f32⟩ : BufTy).Contents (Elt Ideal))
    (x5 : (⟨S300, .f32⟩ : BufTy).Contents (Elt Ideal)) (r : Fin 2048) (d : Fin 300) :
    val_main_v9 (F := Ideal) x0 x4 x5 (ix2 r d) = DiagCov.layer x0 x4 x5 r d := by
  rw [val_main_v9_apply, val_main_v6_apply, val_main_v8_apply, val_main_v7_apply]
  simp only [val_main_v5_apply, batch_idx_scale, weight_idx_scale, bias_idx_scale]
  rfl

/-- The reciprocal variance at `(r, d)`. -/
theorem recip_apply (x0 : (⟨S2048x64, .f32⟩ : BufTy).Contents (Elt Ideal)) (x4 : (⟨S300x64, .f32⟩ : BufTy).Contents (Elt Ideal))
    (x5 : (⟨S300, .f32⟩ : BufTy).Contents (Elt Ideal)) (r : Fin 2048) (d : Fin 300) :
    val_main_v19 (F := Ideal) x0 x4 x5 (ix2 r d) = DiagCov.invVar x0 x4 x5 r d := by
  rw [val_main_v19_apply, val_main_v18_apply, val_main_cst_apply, val_main_v10_apply, scale_apply]
  rfl

/-- The identity matrix at `(d, e)`: adding the zero word leaves the row numeral as it is. -/
theorem eye_apply (d e : Fin 300) : val_main_v17 (F := Ideal) (ix2 d e) = OneHotSum.hot (BitVec.ofNat 32 d.val) e.val := by
  rw [val_main_v17_apply, val_main_v16_apply, val_main_v15_apply, val_main_v12_apply, val_main_v14_apply, val_main_c_apply,
    val_main_v13_apply]
  show FloatOps.uitofp (F := Ideal) .f32 (IntOp.cmpi .eq (IntOp.addi (BitVec.ofNat 32 d.val) 0#32) (BitVec.ofNat 32 e.val)) = _
  rw [show IntOp.addi (BitVec.ofNat 32 d.val) 0#32 = BitVec.ofNat 32 d.val from BitVec.add_zero _]
  rfl

/-! ## The two results -/

/-- The reference's second result is the residual. -/
theorem residual_eq (x0 : (⟨S2048x64, .f32⟩ : BufTy).Contents (Elt Ideal)) (x1 : (⟨S2048x300, .f32⟩ : BufTy).Contents (Elt Ideal))
    (x2 : (⟨S300x64, .f32⟩ : BufTy).Contents (Elt Ideal)) (x3 : (⟨S300, .f32⟩ : BufTy).Contents (Elt Ideal)) :
    val_main_v11 (F := Ideal) x0 x1 x2 x3 = DiagCov.residual x0 x1 x2 x3 := by
  funext i
  obtain ⟨r, d, rfl⟩ : ∃ (r : Fin 2048) (d : Fin 300), i = ix2 r d := ⟨i 0, i 1, eq_ix2 i⟩
  rw [val_main_v11_apply, mean_apply]
  rfl

/-- The reference's first result is the diagonal inverse covariance. -/
theorem diagInv_eq (x0 : (⟨S2048x64, .f32⟩ : BufTy).Contents (Elt Ideal)) (x4 : (⟨S300x64, .f32⟩ : BufTy).Contents (Elt Ideal))
    (x5 : (⟨S300, .f32⟩ : BufTy).Contents (Elt Ideal)) :
    val_main_v24 (F := Ideal) x0 x4 x5 = DiagCov.diagInv x0 x4 x5 := by
  funext i
  obtain ⟨r, d, e, rfl⟩ : ∃ (r : Fin 2048) (d e : Fin 300), i = ix3 r d e := ⟨i 0, i 1, i 2, eq_ix3 i⟩
  rw [val_main_v24_apply, val_main_v22_apply, val_main_v20_apply, recip_idx, recip_apply, val_main_v23_apply, val_main_v21_apply,
    eye_idx, eye_apply]
  rfl

end Cert.ReferenceIdeal.RefValue

end
-- ==== Proof.lean ====
/-
  A decoder of two affine layers and a per-sample diagonal inverse covariance: for a batch `b` (2048 × 64), labels
  (2048 × 300), mean weights and bias `μ_w` (300 × 64), `μ_b` (300), scale weights and bias `σ_w`, `σ_b`,
      diff[r, d]     = labels[r, d] − (Σₖ b[r, k] · μ_w[d, k] + μ_b[d]),
      final[r, d, e] = (1 / (Σₖ b[r, k] · σ_w[d, k] + σ_b[d])²) · [d = e].
  The kernel tiles the batch in 128 blocks of 16 rows, multiplies each block by the host-transposed weights on the matrix
  unit into a zero accumulator, and builds the identity from two iotas; the reference does the same with whole-array host
  operations. On the extended reals the two are ONE function entry by entry — a matrix product into zero is the sum, a
  change of tiling changes nothing, the kernel's and the host's quotient are the same total quotient, and the identity's
  entry is the number of one answer bit however it is widened — so no law of arithmetic is needed and finiteness of the
  inputs is never used:
  • `Spec`: the two functions (`DiagCov.residual`, `DiagCov.diagInv`);
  • `KernelSide`: the body's two stored values at an entry of their blocks;
  • `Blocks`: a staged block's entry is an argument's entry, point `t` writes back rows `16 t … 16 t + 15` of the two
    functions, the blocks cover the arrays, the kernel's run ends at the two functions;
  • `RefSide`: the reference's run ends at the same two functions.
  The three frames: the kernels' are their launch and body runs; the reference's is its run with the results dropped.
  The idealization rewrote nothing, so `preserves` has no conjunct.
-/
import proofs.«136728_j28604482192086_1_alg».proof.Defs
import proofs.«136728_j28604482192086_1_alg».proof.Proof.Gen.Kernel
import proofs.«136728_j28604482192086_1_alg».proof.Proof.Gen.Kernel.Skeleton
import proofs.«136728_j28604482192086_1_alg».proof.Proof.Gen.Kernel.Launch
import proofs.«136728_j28604482192086_1_alg».proof.Proof.Gen.Kernel.Points
import proofs.«136728_j28604482192086_1_alg».proof.Proof.Gen.Kernel.Frame
import proofs.«136728_j28604482192086_1_alg».proof.Proof.Gen.KernelIdeal
import proofs.«136728_j28604482192086_1_alg».proof.Proof.Gen.KernelIdeal.Skeleton
import proofs.«136728_j28604482192086_1_alg».proof.Proof.Gen.KernelIdeal.Launch
import proofs.«136728_j28604482192086_1_alg».proof.Proof.Gen.KernelIdeal.Points
import proofs.«136728_j28604482192086_1_alg».proof.Proof.Gen.KernelIdeal.Frame
import proofs.«136728_j28604482192086_1_alg».proof.Proof.Gen.ReferenceIdeal
import proofs.«136728_j28604482192086_1_alg».proof.Proof.Gen.Pre_finite_inputs
import proofs.«136728_j28604482192086_1_alg».proof.Proof.Gen.KernelIdeal.Value
import proofs.«136728_j28604482192086_1_alg».proof.Proof.Gen.ReferenceIdeal.Run
import proofs.«136728_j28604482192086_1_alg».proof.Proof.Gen.ReferenceIdeal.Read
import proofs.«136728_j28604482192086_1_alg».proof.Proof.Blocks
import proofs.«136728_j28604482192086_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with `final` at the diagonal inverse covariance and `diff` at the residual of arguments that agree. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.RefValue.diagInv_eq,
      (hagree c).1, (hagree c).2.2.2.2.1, (hagree c).2.2.2.2.2]
  · rw [Cert.ReferenceIdeal.Read.val_main_v11_eq, Cert.ReferenceIdeal.RefValue.residual_eq,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
